-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S1600000 : Shape := ⟨1, ![1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S1600000x64 .f32) (main_arg2 : IVec S1600000 32) (main_arg3 : IVec S1600000 32) (main_arg4 : FVec F S64x128 .f32) (main_arg5 : FVec F S128 .f32) (main_arg6 : FVec F S128x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x64 : Shape := ⟨2, ![50000, 64]⟩
abbrev S1600000x64 : Shape := ⟨2, ![1600000, 64]⟩
abbrev S1600000 : Shape := ⟨1, ![1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S16000x64 : Shape := ⟨2, ![16000, 64]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩

abbrev nBuf : Space → Nat
  | .hbm => 23
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S50000x64, .f32⟩
  | .hbm, ⟨20, _⟩ => ⟨S1600000x1, .i32⟩
  | .hbm, ⟨21, _⟩ => ⟨S50000x64, .f32⟩
  | .hbm, ⟨22, _⟩ => ⟨S50000x64, .f32⟩
  | .local _ .vmem, ⟨0, _⟩ => ⟨S16000x64, .f32⟩
  | .local _ .vmem, ⟨1, _⟩ => ⟨S16000x64, .f32⟩
  | .local _ .vmem, ⟨2, _⟩ => ⟨S16000x64, .f32⟩
  | .local _ .vmem, ⟨3, _⟩ => ⟨S16000x64, .f32⟩
  | .local _ .vmem, ⟨4, _⟩ => ⟨S16000x64, .f32⟩
  | .local _ .vmem, ⟨5, _⟩ => ⟨S16000x64, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S1600000x64.size a
  hwx0_1 : ∀ i : grid0.Coords, EltTy.bits .f32 = 32 ∨ (Rect.block (s := S1600000x64) S16000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S1600000x64.size a
  hwx0_2 : ∀ i : grid0.Coords, EltTy.bits .f32 = 32 ∨ (Rect.block (s := S1600000x64) S16000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v6) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S16000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S1600000 : Shape := ⟨1, ![1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S50000x128 : Shape := ⟨2, ![50000, 128]⟩
abbrev S1x128 : Shape := ⟨2, ![1, 128]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S50000x64, .f32⟩
  | .hbm, ⟨20, _⟩ => ⟨S1600000x1, .i32⟩
  | .hbm, ⟨21, _⟩ => ⟨S50000x64, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.EdgeAddValue.lean ====
/-
  The edge-message region. Its grid has 100 points; point `t` adds rows `16000·t … 16000·t + 15999` of the
  gathered node features to the same rows of the edge features and writes the sum back to those rows. The
  100 row blocks tile the 1,600,000 rows, so after the region the message array is the entrywise sum of the
  two arrays as the region found them.
-/
import proofs.«120739_j420906795778_1_alg».proof.Proof.Gen.KernelIdeal.Frame
import Idealize.ShloMosaic.Lib.Pipeline.Value

set_option maxRecDepth 16384

noncomputable section

namespace Cert.KernelIdeal.EdgeAdd

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The entrywise sum of two edge-sized arrays. -/
abbrev sumArr (a0 a1 : S1600000x64.Idx → Elt F .f32) : S1600000x64.Idx → Elt F .f32 := fun i => FloatOps.addf (a0 i) (a1 i)

/-- At point `t` every window is on row block `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the entrywise sum. -/
theorem flushed_eq (c : Dev nD) (t : Fin cfg0.N) :
    (dat0 V c).flushed 2 t = ((cfg0.win 2).blk t).view.read (Elt F) (sumArr (V c main_v6) (V c main_arg1)) := by
  show (cfg0.win 2).cut (grid0.coords t) ((dat0 V c).after 2 t) = _
  rw [after0_2]
  unfold out0_2
  rw [View.canon_unit_zero hz]
  simp only [View.ld_unit_zero (S := S16000x64) hz]
  unfold k0_pay1
  dsimp only
  rw [shapeCast_self]
  obtain ⟨e0, e1, e2, e3, e4, e5⟩ := idx_facts t
  funext j
  show FloatOps.addf (V c main_v6 (((cfg0.win 0).blk t).view.emb j)) (V c main_arg1 (((cfg0.win 1).blk t).view.emb j)) = FloatOps.addf (V c main_v6 (((cfg0.win 2).blk t).view.emb j)) (V c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 16000 + 1 * (j 0).val = win0_2.index t (0 : Fin 2) * 16000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 16000 + 1 * (j 0).val = win0_2.index t (0 : Fin 2) * 16000 + 1 * (j 0).val; omega
    | ⟨1, _⟩ => show win0_1.index t (1 : Fin 2) * 64 + 1 * (j 1).val = win0_2.index t (1 : Fin 2) * 64 + 1 * (j 1).val; omega
  rw [h0, h1]

/-- An index lies in point `t`'s output block iff each coordinate lies in the block's range on its axis. -/
theorem mem_blk (t : Fin cfg0.N) (i : S1600000x64.Idx) :
    i ∈ ((cfg0.win 2).blk t).view.set ↔ ∀ a : Fin 2, win0_2.index t a * S16000x64.size a ≤ (i a).val ∧ (i a).val < win0_2.index t a * S16000x64.size a + S16000x64.size a := by
  show i ∈ ((View.whole main_v7).slice (win0_2.rect t)).set ↔ _
  rw [View.set_slice_whole, Rect.mem_set_unit]
  exact Iff.rfl

/-- Row `r` is in the block of point `r / 16000`: the blocks tile the array. -/
theorem cover (i : S1600000x64.Idx) : ∃ t : Fin cfg0.N, (cfg0.win 2).flush t = true ∧ i ∈ ((cfg0.win 2).blk t).view.set := by
  have hi0 : (i 0).val < 1600000 := (i 0).isLt
  have hi1 : (i 1).val < 64 := (i 1).isLt
  obtain ⟨t, ht⟩ : ∃ t : Fin cfg0.N, t.val = (i 0).val / 16000 := ⟨⟨(i 0).val / 16000, by rw [show cfg0.N = 100 from N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 16000 ≤ (i 0).val ∧ (i 0).val < win0_2.index t (0 : Fin 2) * 16000 + 16000; omega
  | ⟨1, _⟩ => show win0_2.index t (1 : Fin 2) * 64 ≤ (i 1).val ∧ (i 1).val < win0_2.index t (1 : Fin 2) * 64 + 64; omega

/-- THE MESSAGE ARRAY after the region: the entrywise sum of the gathered features and the edge features. -/
theorem final (c : Dev nD) : (dat0 V c).arrAt 2 cfg0.N = sumArr (V c main_v6) (V c main_arg1) :=
  (dat0 V c).arrAt_eq_of_cover 2 (sumArr (V c main_v6) (V c main_arg1)) (fun t _ => flushed_eq V c t) cover

end Cert.KernelIdeal.EdgeAdd

end
-- ==== Proof.MlpSpec.lean ====
/-
  One entry of a two-layer perceptron with a rectifier between the layers, over the extended reals:
  for a row `a` of 64 features, first-layer weights `w1` (64 × 128) and bias `b1`, the column `w2c` of the
  second-layer weights that belongs to the output feature, and that feature's bias `b2q`,

      entry a w1 b1 w2c b2q = (∑ k, max ((∑ l, a l * w1 l k) + b1 k) 0 * w2c k) + b2q.

  Both programs compute exactly this sum at every (node, feature) pair; nothing is reassociated, so no
  finiteness of the inputs is needed to compare them.
-/
import Idealize.ShloMosaic.PureOps.Ideal
import Idealize.ShloMosaic.Lib.ValueIdx

noncomputable section

open scoped BigOperators

namespace Cert.Mlp

open Idealize.ShloMosaic Idealize.ShloMosaic.ValueIdx

/-- The hidden unit `k` of a row: the rectified affine form of the row's 64 features. -/
def hidden (a : Fin 64 → EReal) (w1 : Fin 64 → Fin 128 → EReal) (b1 : Fin 128 → EReal) (k : Fin 128) : EReal :=
  max ((∑ l : Fin 64, a l * w1 l k) + b1 k) 0

/-- One output entry: the second affine layer over the 128 hidden units. -/
def entry (a : Fin 64 → EReal) (w1 : Fin 64 → Fin 128 → EReal) (b1 : Fin 128 → EReal) (w2c : Fin 128 → EReal) (b2q : EReal) : EReal :=
  (∑ k : Fin 128, hidden a w1 b1 k * w2c k) + b2q

/-- The perceptron applied to every row of an `n × 64` array of aggregated features: entry `(p, q)` of the result. -/
def rows {n : Nat} (agg : (⟨2, ![n, 64]⟩ : Shape).Idx → EReal) (w1 : (⟨2, ![64, 128]⟩ : Shape).Idx → EReal)
    (b1 : (⟨1, ![128]⟩ : Shape).Idx → EReal) (w2 : (⟨2, ![128, 64]⟩ : Shape).Idx → EReal) (b2 : (⟨1, ![64]⟩ : Shape).Idx → EReal)
    (p : Fin n) (q : Fin 64) : EReal :=
  entry (fun l => agg (ix2 p l)) (fun l k => w1 (ix2 l k)) (fun k => b1 (ix1 k)) (fun k => w2 (ix2 k q)) (b2 (ix1 q))

/-- An entry depends only on its row of features, the weights, and its column of the second layer: two arrays
    that agree there (a row block against the whole array, say) give the same entry. -/
theorem rows_congr {n n' : Nat} (agg : (⟨2, ![n, 64]⟩ : Shape).Idx → EReal) (agg' : (⟨2, ![n', 64]⟩ : Shape).Idx → EReal)
    (w1 w1' : (⟨2, ![64, 128]⟩ : Shape).Idx → EReal) (b1 b1' : (⟨1, ![128]⟩ : Shape).Idx → EReal)
    (w2 w2' : (⟨2, ![128, 64]⟩ : Shape).Idx → EReal) (b2 b2' : (⟨1, ![64]⟩ : Shape).Idx → EReal)
    (p : Fin n) (p' : Fin n') (q q' : Fin 64)
    (ha : ∀ l, agg (ix2 p l) = agg' (ix2 p' l)) (hw1 : ∀ l k, w1 (ix2 l k) = w1' (ix2 l k)) (hb1 : ∀ k, b1 (ix1 k) = b1' (ix1 k))
    (hw2 : ∀ k, w2 (ix2 k q) = w2' (ix2 k q')) (hb2 : b2 (ix1 q) = b2' (ix1 q')) :
    rows agg w1 b1 w2 b2 p q = rows agg' w1' b1' w2' b2' p' q' := by
  unfold rows
  simp only [ha, hw1, hb1, hw2, hb2]

end Cert.Mlp

end
-- ==== Proof.MlpPayload.lean ====
/-
  What the perceptron kernel stores at one entry of its 5000 × 64 output block: entry `(p, q)` is
  `Cert.Mlp.rows` of the block's rows — the two `tpu.matmul`s into zero accumulators are the two sums over
  the contracted axis, the narrowing to bf16 before each is the identity on the extended reals, the bias
  rows are broadcast down the block, and the rectifier is `max · 0`.
-/
import proofs.«120739_j420906795778_1_alg».proof.Proof.Gen.KernelIdeal.Skeleton
import proofs.«120739_j420906795778_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MlpPayload

open Cert.KernelIdeal Cert.KernelIdeal.Gen Idealize.ShloMosaic Idealize.ShloMosaic.ValueIdx

/-! ## The first contraction: rows of the block against the 64 × 128 weights -/

theorem lhsA_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsA_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhsA_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhsA_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry `(p, k)` of the first product into a zero accumulator is the sum over the 64 features. -/
theorem mmA_apply (lhs : FVec Ideal S5000x64 .bf16) (rhs : FVec Ideal S64x128 .bf16) (p : Fin 5000) (k : Fin 128) :
    matmul dot_S5000x64_S64x128_S5000x128_1_0_0_1_n_n none lhs rhs (constant S5000x128 .f32 0x00000000#32) (ix2 p k)
      = ∑ l : Fin 64, lhs (ix2 p l) * rhs (ix2 l k) := by
  simp only [matmul]
  rw [Ideal.matmul_constant_zero_apply, ← Equiv.sum_comp (contrEquiv1 dot_S5000x64_S64x128_S5000x128_1_0_0_1_n_n 64 rfl rfl).symm]
  refine Finset.sum_congr rfl fun l _ => ?_
  have hk := contrEquiv1_symm_val dot_S5000x64_S64x128_S5000x128_1_0_0_1_n_n 64 rfl rfl l
  have el : dot_S5000x64_S64x128_S5000x128_1_0_0_1_n_n.lhsIdx (ix2 p k) ((contrEquiv1 dot_S5000x64_S64x128_S5000x128_1_0_0_1_n_n 64 rfl rfl).symm l) = ix2 p l := funext fun a => Fin.ext (by
    match a with
    | ⟨0, _⟩ => exact lhsA_0 _ _
    | ⟨1, _⟩ => exact (lhsA_1 _ _).trans hk)
  have er : dot_S5000x64_S64x128_S5000x128_1_0_0_1_n_n.rhsIdx (ix2 p k) ((contrEquiv1 dot_S5000x64_S64x128_S5000x128_1_0_0_1_n_n 64 rfl rfl).symm l) = ix2 l k := funext fun a => Fin.ext (by
    match a with
    | ⟨0, _⟩ => exact (rhsA_0 _ _).trans hk
    | ⟨1, _⟩ => exact rhsA_1 _ _)
  rw [el, er]

/-! ## The second contraction: hidden rows against the 128 × 64 weights -/

theorem lhsB_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhsB_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhsB_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhsB_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(p, q)` of the second product into a zero accumulator is the sum over the 128 hidden units. -/
theorem mmB_apply (lhs : FVec Ideal S5000x128 .bf16) (rhs : FVec Ideal S128x64 .bf16) (p : Fin 5000) (q : Fin 64) :
    matmul dot_S5000x128_S128x64_S5000x64_1_0_0_1_n_n none lhs rhs (constant S5000x64 .f32 0x00000000#32) (ix2 p q)
      = ∑ k : Fin 128, lhs (ix2 p k) * rhs (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The bias rows broadcast down the block -/

/-- The 128 first-layer biases, viewed as one row and broadcast to 5000 rows, read `b1 k` at `(p, k)`. -/
theorem biasA_apply (b : Vec Ideal S128 .f32) (p : Fin 5000) (k : Fin 128) :
    broadcastTo S5000x128 (shapeCast S1x128 b shapeCasts_S128_S1x128) broadcasts_S1x128_S5000x128 (ix2 p k) = b (ix1 k) := by
  rw [broadcastTo_1b_ab_apply, shapeCast_a_1a_apply]

/-- The 64 second-layer biases, viewed as one row and broadcast to 5000 rows, read `b2 q` at `(p, q)`. -/
theorem biasB_apply (b : Vec Ideal S64 .f32) (p : Fin 5000) (q : Fin 64) :
    broadcastTo S5000x64 (shapeCast S1x64 b shapeCasts_S64_S1x64) broadcasts_S1x64_S5000x64 (ix2 p q) = b (ix1 q) := by
  rw [broadcastTo_1b_ab_apply, shapeCast_a_1a_apply]

/-! ## The stored value at an entry -/

/-- The hidden activations the body forms, at `(p, k)`: the rectified affine form of row `p` of the block. -/
theorem hidden_apply (v0 : Vec Ideal S5000x64 .f32) (v3 : Vec Ideal S64x128 .f32) (v6 : Vec Ideal S128 .f32) (p : Fin 5000) (k : Fin 128) :
    maximumf (F := Ideal) (addf (matmul dot_S5000x64_S64x128_S5000x128_1_0_0_1_n_n none
        (truncf .bf16 (shapeCast S5000x64 v0 shapeCasts_S5000x64_S5000x64) bitsLt_bf16_f32) (truncf .bf16 v3 bitsLt_bf16_f32) (constant (F := Ideal) S5000x128 .f32 0x00000000#32))
        (broadcastTo S5000x128 (shapeCast S1x128 v6 shapeCasts_S128_S1x128) broadcasts_S1x128_S5000x128))
      (broadcast S5000x128 (Scalar.ofBits (F := Ideal) .f32 0x00000000#32)) (ix2 p k)
      = Cert.Mlp.hidden (fun l => v0 (ix2 p l)) (fun l k => v3 (ix2 l k)) (fun k => v6 (ix1 k)) k := by
  rw [maximumf_apply, addf_apply, mmA_apply, biasA_apply, shapeCast_self]
  unfold Cert.Mlp.hidden
  simp only [truncf_apply, broadcast_apply]
  congr 1
  exact Ideal.ofBits_zero_f32

/-- THE STORED ENTRY: `(p, q)` of the block the body stores is the perceptron's entry for row `p` and feature `q`. -/
theorem pay_apply (v0 : Vec Ideal S5000x64 .f32) (v3 : Vec Ideal S64x128 .f32) (v6 : Vec Ideal S128 .f32)
    (v13 : Vec Ideal S128x64 .f32) (v16 : Vec Ideal S64 .f32) (p : Fin 5000) (q : Fin 64) :
    k1_pay1 v0 v3 v6 v13 v16 (ix2 p q) = Cert.Mlp.rows (n := 5000) v0 v3 v6 v13 v16 p q := by
  unfold k1_pay1
  refine (addf_apply _ _ _).trans ?_
  rw [mmB_apply, biasB_apply]
  unfold Cert.Mlp.rows Cert.Mlp.entry
  congr 1
  refine Finset.sum_congr rfl fun k _ => ?_
  rw [truncf_apply, truncf_apply, hidden_apply]

end Cert.KernelIdeal.MlpPayload

end
-- ==== Proof.MlpValue.lean ====
/-
  The perceptron region. Its grid has 10 points; point `t` reads rows `5000·t … 5000·t + 4999` of the
  aggregated features, the whole of both weight matrices and both bias vectors, and writes the perceptron
  of those rows back to the same rows of the result. The 10 row blocks tile the 50,000 rows, so after the
  region entry `(r, q)` of the result is the perceptron's entry for row `r` of the aggregated features as
  the region found them.
-/
import proofs.«120739_j420906795778_1_alg».proof.Proof.Gen.KernelIdeal.Frame
import proofs.«120739_j420906795778_1_alg».proof.Proof.MlpSpec
import proofs.«120739_j420906795778_1_alg».proof.Proof.MlpPayload
import Idealize.ShloMosaic.Lib.Pipeline.Value
import Idealize.ShloMosaic.Lib.ValueIdx

set_option maxRecDepth 16384

noncomputable section

namespace Cert.KernelIdeal.MlpValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The perceptron of every row of the aggregated features. -/
abbrev outArr (agg : S50000x64.Idx → Elt Ideal .f32) (w1 : S64x128.Idx → Elt Ideal .f32) (b1 : S128.Idx → Elt Ideal .f32)
    (w2 : S128x64.Idx → Elt Ideal .f32) (b2 : S64.Idx → Elt Ideal .f32) : S50000x64.Idx → Elt Ideal .f32 :=
  fun i => Cert.Mlp.rows (n := 50000) agg w1 b1 w2 b2 (i 0) (i 1)

/-- At point `t` the feature window and the result window are on row block `t`; the weights and biases are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-! ## Each window's block as entries of its array -/

/-- Row `p` of the feature block at point `t` is row `5000·t + p` of the aggregated features. -/
theorem blk0_apply (c : Dev nD) (t : Fin cfg1.N) (p : Fin 5000) (l : Fin 64) (r : Fin 50000) (hr : r.val = t.val * 5000 + p.val) :
    (iblk1 V c 0 t : Vec Ideal S5000x64 .f32) (ix2 p l) = (V c main_v10 : S50000x64.Idx → Elt Ideal .f32) (ix2 r l) := by
  obtain ⟨e0, e1, -⟩ := idx_facts t
  unfold iblk1
  rw [View.read_apply]
  show V c main_v10 _ = V c main_v10 _
  congr 1
  funext a
  apply Fin.ext
  match a with
  | ⟨0, _⟩ => show win1_0.index t (0 : Fin 2) * 5000 + 1 * p.val = r.val; omega
  | ⟨1, _⟩ => show win1_0.index t (1 : Fin 2) * 64 + 1 * l.val = l.val; omega

/-- The first-layer weights' block is the whole matrix. -/
theorem blk1_apply (c : Dev nD) (t : Fin cfg1.N) (l : Fin 64) (k : Fin 128) :
    (iblk1 V c 1 t : Vec Ideal S64x128 .f32) (ix2 l k) = (V c main_arg4 : S64x128.Idx → Elt Ideal .f32) (ix2 l k) := by
  obtain ⟨-, -, e2, e3, -⟩ := idx_facts t
  unfold iblk1
  rw [View.read_apply]
  show V c main_arg4 _ = V c main_arg4 _
  congr 1
  funext a
  apply Fin.ext
  match a with
  | ⟨0, _⟩ => show win1_1.index t (0 : Fin 2) * 64 + 1 * l.val = l.val; omega
  | ⟨1, _⟩ => show win1_1.index t (1 : Fin 2) * 128 + 1 * k.val = k.val; omega

/-- The first-layer biases' block is the whole vector. -/
theorem blk2_apply (c : Dev nD) (t : Fin cfg1.N) (k : Fin 128) :
    (iblk1 V c 2 t : Vec Ideal S128 .f32) (ix1 k) = (V c main_arg5 : S128.Idx → Elt Ideal .f32) (ix1 k) := by
  obtain ⟨-, -, -, -, e4, -⟩ := idx_facts t
  unfold iblk1
  rw [View.read_apply]
  show V c main_arg5 _ = V c main_arg5 _
  congr 1
  funext a
  apply Fin.ext
  match a with
  | ⟨0, _⟩ => show win1_2.index t (0 : Fin 1) * 128 + 1 * k.val = k.val; omega

/-- The second-layer weights' block is the whole matrix. -/
theorem blk3_apply (c : Dev nD) (t : Fin cfg1.N) (k : Fin 128) (q q' : Fin 64) (hq : q'.val = q.val) :
    (iblk1 V c 3 t : Vec Ideal S128x64 .f32) (ix2 k q) = (V c main_arg6 : S128x64.Idx → Elt Ideal .f32) (ix2 k q') := by
  obtain ⟨-, -, -, -, -, e5, e6, -⟩ := idx_facts t
  unfold iblk1
  rw [View.read_apply]
  show V c main_arg6 _ = V c main_arg6 _
  congr 1
  funext a
  apply Fin.ext
  match a with
  | ⟨0, _⟩ => show win1_3.index t (0 : Fin 2) * 128 + 1 * k.val = k.val; omega
  | ⟨1, _⟩ => show win1_3.index t (1 : Fin 2) * 64 + 1 * q.val = q'.val; omega

/-- The second-layer biases' block is the whole vector. -/
theorem blk4_apply (c : Dev nD) (t : Fin cfg1.N) (q q' : Fin 64) (hq : q'.val = q.val) :
    (iblk1 V c 4 t : Vec Ideal S64 .f32) (ix1 q) = (V c main_arg7 : S64.Idx → Elt Ideal .f32) (ix1 q') := by
  obtain ⟨-, -, -, -, -, -, -, e7, -⟩ := idx_facts t
  unfold iblk1
  rw [View.read_apply]
  show V c main_arg7 _ = V c main_arg7 _
  congr 1
  funext a
  apply Fin.ext
  match a with
  | ⟨0, _⟩ => show win1_4.index t (0 : Fin 1) * 64 + 1 * q.val = q'.val; omega

/-! ## The write-back, the cover, the array -/

/-- What point `t` writes back is block `t` of the perceptron of the aggregated features. -/
theorem flushed_eq (c : Dev nD) (t : Fin cfg1.N) :
    (dat1 V c).flushed 5 t = ((cfg1.win 5).blk t).view.read (Elt Ideal)
      (outArr (V c main_v10) (V c main_arg4) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x128) hz2, View.ld_unit_zero (S := S128) hz1,
    View.ld_unit_zero (S := S128x64) hz2, View.ld_unit_zero (S := S64) hz1]
  obtain ⟨-, -, -, -, -, -, -, -, e8, e9⟩ := idx_facts t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = outArr (V c main_v10) (V c main_arg4) (V c main_arg5) (V c main_arg6) (V c main_arg7) (((cfg1.win 5).blk t).view.emb (ix2 p q))
  refine (MlpPayload.pay_apply (iblk1 V c 0 t) (iblk1 V c 1 t) (iblk1 V c 2 t) (iblk1 V c 3 t) (iblk1 V c 4 t) p q).trans ?_
  have h0 : ((((cfg1.win 5).blk t).view.emb (ix2 p q)) 0).val = t.val * 5000 + p.val := by
    show win1_5.index t (0 : Fin 2) * 5000 + 1 * p.val = _; omega
  have h1 : ((((cfg1.win 5).blk t).view.emb (ix2 p q)) 1).val = q.val := by
    show win1_5.index t (1 : Fin 2) * 64 + 1 * q.val = _; omega
  exact Cert.Mlp.rows_congr _ _ _ _ _ _ _ _ _ _ p _ q _
    (fun l => blk0_apply V c t p l _ h0) (fun l k => blk1_apply V c t l k) (fun k => blk2_apply V c t k)
    (fun k => blk3_apply V c t k q _ h1) (blk4_apply V c t q _ h1)

/-- An index lies in point `t`'s output block iff each coordinate lies in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v11).slice (win1_5.rect t)).set ↔ _
  rw [View.set_slice_whole, Rect.mem_set_unit]
  exact Iff.rfl

/-- Row `r` is in the block of point `r / 5000`: the blocks tile the array. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, e8, e9⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE RESULT ARRAY after the region: the perceptron of every row of the aggregated features. -/
theorem final (c : Dev nD) : (dat1 V c).arrAt 5 cfg1.N
    = outArr (V c main_v10) (V c main_arg4) (V c main_arg5) (V c main_arg6) (V c main_arg7) :=
  (dat1 V c).arrAt_eq_of_cover 5 (outArr (V c main_v10) (V c main_arg4) (V c main_arg5) (V c main_arg6) (V c main_arg7))
    (fun t _ => flushed_eq V c t) cover

end Cert.KernelIdeal.MlpValue

end
-- ==== Proof.RefMlp.lean ====
/-
  The reference's result read at an entry. After the aggregation (the stage `val_main_v10`, never opened
  here), the reference applies `agg @ W1 + b1`, the rectifier, `· @ W2 + b2`: entry `(p, q)` is the
  perceptron's entry `Cert.Mlp.rows` of row `p` of the aggregated features — the two `dot_general`s are
  the sums over the contracted axis, each bias is broadcast down the rows, the rectifier is `max · 0`.
-/
import proofs.«120739_j420906795778_1_alg».proof.Proof.Gen.ReferenceIdeal.Read
import proofs.«120739_j420906795778_1_alg».proof.Proof.MlpSpec
import Idealize.ShloMosaic.Lib.ValueIdx
import Idealize.ShloMosaic.PureOps.Ideal.Laws

noncomputable section

open scoped BigOperators

namespace Cert.ReferenceIdeal.RefMlp

open Cert.ReferenceIdeal Cert.ReferenceIdeal.Read Idealize.ShloMosaic Idealize.ShloMosaic.ValueIdx

/-! ## The stages' index maps at coordinates -/

theorem l16 (p : Fin 50000) (q : Fin 64) (k : Fin 128) : lidx_main_v16 (ix2 p q) k = ix2 p k :=
  funext fun a => by match a with | ⟨0, _⟩ => rfl | ⟨1, _⟩ => rfl
theorem r16 (p : Fin 50000) (q : Fin 64) (k : Fin 128) : ridx_main_v16 (ix2 p q) k = ix2 k q :=
  funext fun a => by match a with | ⟨0, _⟩ => rfl | ⟨1, _⟩ => rfl
theorem l11 (p : Fin 50000) (k : Fin 128) (l : Fin 64) : lidx_main_v11 (ix2 p k) l = ix2 p l :=
  funext fun a => by match a with | ⟨0, _⟩ => rfl | ⟨1, _⟩ => rfl
theorem r11 (p : Fin 50000) (k : Fin 128) (l : Fin 64) : ridx_main_v11 (ix2 p k) l = ix2 l k :=
  funext fun a => by match a with | ⟨0, _⟩ => rfl | ⟨1, _⟩ => rfl
theorem i13 (p : Fin 50000) (k : Fin 128) : idx_main_v12 (idx_main_v13 (ix2 p k)) = ix1 k :=
  funext fun a => by match a with | ⟨0, _⟩ => rfl
theorem i18 (p : Fin 50000) (q : Fin 64) : idx_main_v17 (idx_main_v18 (ix2 p q)) = ix1 q :=
  funext fun a => by match a with | ⟨0, _⟩ => rfl

/-- The hidden layer of the reference at `(p, k)`. -/
theorem hidden_apply (x0 : (⟨S50000x64, .f32⟩ : BufTy).Contents (Elt Ideal)) (x1 : (⟨S1600000x64, .f32⟩ : BufTy).Contents (Elt Ideal)) (x2 x3 : (⟨S1600000, .i32⟩ : BufTy).Contents (Elt Ideal))
    (x4 : (⟨S64x128, .f32⟩ : BufTy).Contents (Elt Ideal)) (x5 : (⟨S128, .f32⟩ : BufTy).Contents (Elt Ideal)) (p : Fin 50000) (k : Fin 128) :
    val_main_v15 (F := Ideal) x0 x1 x2 x3 x4 x5 (ix2 p k)
      = Cert.Mlp.hidden (fun l => val_main_v10 (F := Ideal) x0 x1 x2 x3 (ix2 p l)) (fun l k => x4 (ix2 l k)) (fun k => x5 (ix1 k)) k := by
  rw [val_main_v15_apply, val_main_v14_apply, val_main_v11_apply, val_main_v13_apply, val_main_v12_apply, val_main_call0_v0_apply,
    val_main_call0_cst_apply, i13]
  unfold Cert.Mlp.hidden
  simp only [l11, r11, Ideal.addf_def, Ideal.maximumf_def]
  congr 1
  exact Ideal.ofBits_zero_f32

/-- THE REFERENCE'S ENTRY `(p, q)`. -/
theorem ref_apply (x0 : (⟨S50000x64, .f32⟩ : BufTy).Contents (Elt Ideal)) (x1 : (⟨S1600000x64, .f32⟩ : BufTy).Contents (Elt Ideal)) (x2 x3 : (⟨S1600000, .i32⟩ : BufTy).Contents (Elt Ideal))
    (x4 : (⟨S64x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) (p : Fin 50000) (q : Fin 64) :
    val_main_v19 (F := Ideal) x0 x1 x2 x3 x4 x5 x6 x7 (ix2 p q)
      = Cert.Mlp.rows (n := 50000) (val_main_v10 (F := Ideal) x0 x1 x2 x3) x4 x5 x6 x7 p q := by
  rw [val_main_v19_apply, val_main_v16_apply, val_main_v18_apply, val_main_v17_apply, i18]
  unfold Cert.Mlp.rows Cert.Mlp.entry
  simp only [l16, r16, hidden_apply, Ideal.addf_def]

end Cert.ReferenceIdeal.RefMlp

end
-- ==== Proof.KernelValue.lean ====
/-
  The kernel program's result as a function of its launch arrays. Read backwards from the return:
  the result array is the perceptron of the aggregated features (the second region); those are the
  scatter-add, by destination node, of the message array into zeros (the host operations between the
  regions); the message array is the entrywise sum of the gathered node features and the edge features (the
  first region); the gathered features are the host's gather at the wrapped source indices (the host
  operations before the first region). The weights, biases and index arrays reach every step as launched.
  Gather, wrap and scatter-add are exactly the reference's operations on the same operands, so the
  aggregated features are the reference's stage `val_main_v10` of the launch arrays, and the result is its
  last stage `val_main_v19`: neither the gather nor the scatter-add is ever opened.
-/
import proofs.«120739_j420906795778_1_alg».proof.Proof.Gen.KernelIdeal.Frame
import proofs.«120739_j420906795778_1_alg».proof.Proof.EdgeAddValue
import proofs.«120739_j420906795778_1_alg».proof.Proof.MlpValue
import proofs.«120739_j420906795778_1_alg».proof.Proof.RefMlp
import Idealize.ShloMosaic.Lib.StableHlo.Run
import Idealize.ShloMosaic.PureOps.Ideal

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## Arrays no step writes before they are read -/

/-- The edge features enter the first region as launched. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg1) := rfl

/-- The destination indices leave the first region as launched. -/
theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, Finset.mem_singleton]
          repeat' apply And.intro
          all_goals exact StableHlo.devRef_ne_of_ne (by decide)))
    _ = m ((c : Thread nD τ).loc main_arg3) := rfl

/-- The weights and biases enter the second region as launched (each is an input window of that region, so its
    contents at the region's entry are its contents at the return, which are the launch contents). -/
theorem V3_arg4 (c : Dev nD) : V3 m ρ c main_arg4 = m ((c : Thread nD τ).loc main_arg4) :=
  ((W4_arr m ρ c 1).trans (((dat1 (V3 m ρ) c).arrAt_in 1 rfl _).trans (A_eq1 (V3 m ρ) c 1))).symm.trans (W4_main_arg4 m ρ c)
theorem V3_arg5 (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)
theorem V3_arg6 (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)
theorem V3_arg7 (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

/-! ## The host operations, read -/

/-- Before the first region: the gathered node features are the host's gather of the node features at the source
    indices, a negative index wrapped by the number of nodes. -/
theorem V1_v6 (c : Dev nD) : V1 m ρ c main_v6
    = Host.gather gather_S50000x64_S1600000x1_S1600000x64_1_0_n_n_0_1_164 (m ((c : Thread nD τ).loc main_arg0))
        (broadcastInDim S1600000x1 ![0] bcast_S1600000_S1600000x1_0
          (select (cmpi .slt (m ((c : Thread nD τ).loc main_arg2)) (broadcastInDim S1600000 ![] bcast_S_S1600000 (constantI S_ 32 0#32)))
            (addi (m ((c : Thread nD τ).loc main_arg2)) (broadcastInDim S1600000 ![] bcast_S_S1600000 (constantI S_ 32 50000#32)))
            (m ((c : Thread nD τ).loc main_arg2)))) := by
  show StableHlo.after hostOps0 (W0 m ρ c) (Proc.devRef .tc main_v6) = _
  after_results <;> rfl

/-- Between the regions: the aggregated features are the scatter-add of the message array, by destination index,
    into zeros. -/
theorem V3_v10_step (c : Dev nD) : V3 m ρ c main_v10
    = Host.scatterAdd scatter_S50000x64_S1600000x1_S1600000x64_1_0_0_1
        (broadcastInDim S50000x64 ![] bcast_S_S50000x64 (constant (F := Ideal) S_ .f32 0x00000000#32))
        (broadcastInDim S1600000x1 ![0] bcast_S1600000_S1600000x1_0 (W2 m ρ c (Proc.devRef .tc main_arg3)))
        (W2 m ρ c (Proc.devRef .tc main_v7)) := by
  show StableHlo.after hostOps1 (W2 m ρ c) (Proc.devRef .tc main_v10) = _
  after_results <;> rfl

/-- The message array after the first region, from the launch arrays. -/
theorem W2_v7 (c : Dev nD) : W2 m ρ c (Proc.devRef .tc main_v7)
    = Cert.ReferenceIdeal.Read.val_main_v7 (F := Ideal) (m ((c : Thread nD τ).loc main_arg0)) (m ((c : Thread nD τ).loc main_arg1)) (m ((c : Thread nD τ).loc main_arg2)) := by
  refine (W2_arr m ρ c 2).trans ?_
  rw [EdgeAdd.final (V1 m ρ) c, V1_v6 m ρ c, show V1 m ρ c main_arg1 = _ from W1_arg1 m ρ c]
  rfl

/-- THE AGGREGATED FEATURES at the second region's entry are the reference's aggregation of the launch arrays. -/
theorem V3_v10 (c : Dev nD) : V3 m ρ c main_v10
    = Cert.ReferenceIdeal.Read.val_main_v10 (F := Ideal) (m ((c : Thread nD τ).loc main_arg0)) (m ((c : Thread nD τ).loc main_arg1)) (m ((c : Thread nD τ).loc main_arg2)) (m ((c : Thread nD τ).loc main_arg3)) := by
  rw [V3_v10_step m ρ c, W2_arg3 m ρ c, W2_v7 m ρ c]
  rfl

/-! ## The result -/

/-- THE RESULT ARRAY at the return is the reference's last stage of the launch arrays. -/
theorem out_eq (c : Dev nD) : W4 m ρ c (Proc.devRef .tc main_v11)
    = Cert.ReferenceIdeal.Read.val_main_v19 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W4_arr m ρ c 5).trans ?_
  rw [MlpValue.final (V3 m ρ) c]
  funext i
  obtain ⟨p, q, rfl⟩ : ∃ (p : Fin 50000) (q : Fin 64), i = ix2 p q := ⟨i 0, i 1, eq_ix2 i⟩
  refine Eq.trans ?_ (Cert.ReferenceIdeal.RefMlp.ref_apply _ _ _ _ _ _ _ _ p q).symm
  show Cert.Mlp.rows (n := 50000) (V3 m ρ c main_v10) (V3 m ρ c main_arg4) (V3 m ρ c main_arg5) (V3 m ρ c main_arg6) (V3 m ρ c main_arg7) p q = _
  rw [V3_v10 m ρ c, V3_arg4 m ρ c, V3_arg5 m ρ c, V3_arg6 m ρ c, V3_arg7 m ρ c]

end Cert.KernelIdeal.KernelValue

end
-- ==== Proof.lean ====
/-
  A graph-network layer: every edge carries the sum of its source node's features and its own features; each
  node adds up the messages of its incoming edges; a two-layer perceptron with a rectifier is applied to every
  node's aggregated row.

  The kernel program and the reference both take the source rows by the same host gather (a negative index
  wrapped by the number of nodes) and aggregate by the same host scatter-add into zeros, on the same operands.
  They differ in two places only. The edge sum is done by the kernel in 100 row blocks of 16,000 edges, by
  the reference in one entrywise addition: the blocks tile the array, so the message arrays agree. The
  perceptron is done by the kernel in 10 row blocks of 5,000 nodes, narrowing the operands of each product
  to bf16 (the identity on the extended reals) and accumulating into zeros; by the reference with two whole
  contractions: at every (node, feature) pair both are

      (∑ k, max ((∑ l, agg l · W1 l k) + b1 k) 0 · W2 k q) + b2 q,

  the same sums in the same index sets, so nothing is reassociated and the finiteness of the inputs is never
  used. The kernel program's run is the several-region launch with the result buffer kept in its post; the
  reference's run is its operations' composed term. The word-level kernel's and the idealized kernel's frames
  are the launch's frame; the ideal pass rewrote nothing, so the idealization claim is trivial.
-/
import proofs.«120739_j420906795778_1_alg».proof.Defs
import proofs.«120739_j420906795778_1_alg».proof.Proof.Gen.Kernel
import proofs.«120739_j420906795778_1_alg».proof.Proof.Gen.Kernel.Skeleton
import proofs.«120739_j420906795778_1_alg».proof.Proof.Gen.Kernel.Launch
import proofs.«120739_j420906795778_1_alg».proof.Proof.Gen.Kernel.Points
import proofs.«120739_j420906795778_1_alg».proof.Proof.Gen.Kernel.Frame
import proofs.«120739_j420906795778_1_alg».proof.Proof.Gen.KernelIdeal
import proofs.«120739_j420906795778_1_alg».proof.Proof.Gen.KernelIdeal.Skeleton
import proofs.«120739_j420906795778_1_alg».proof.Proof.Gen.KernelIdeal.Launch
import proofs.«120739_j420906795778_1_alg».proof.Proof.Gen.KernelIdeal.Points
import proofs.«120739_j420906795778_1_alg».proof.Proof.Gen.KernelIdeal.Frame
import proofs.«120739_j420906795778_1_alg».proof.Proof.Gen.ReferenceIdeal
import proofs.«120739_j420906795778_1_alg».proof.Proof.Gen.Pre_finite_inputs
import proofs.«120739_j420906795778_1_alg».proof.Proof.Gen.ReferenceIdeal.Run
import proofs.«120739_j420906795778_1_alg».proof.Proof.Gen.ReferenceIdeal.Read
import proofs.«120739_j420906795778_1_alg».proof.Proof.KernelRun
import proofs.«120739_j420906795778_1_alg».proof.Proof.KernelValue
import Idealize.ShloMosaic.Adequacy
import Idealize.ShloMosaic.Init

noncomputable section

namespace Cert.Proof

open Idealize.ShloMosaic Idealize.SL.Sem

/-- The idealized kernel program's run: the result array ends at the reference's last stage of the launch
    arrays, every argument array as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v11)
          = Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono
    (fun r h c => ⟨(h c).1.trans (Cert.KernelIdeal.KernelValue.out_eq m ρ c), (h c).2⟩)
    (Cert.KernelIdeal.Launched.run_out (F := Ideal) m ρ)

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's last stage `val_main_v19` of the (agreeing)
    argument arrays: the kernel program by `kernel_run`, the reference because that stage is its run's term. -/
theorem algebraic : Cert.algebraic_KernelIdeal_ReferenceIdeal := by
  intro m ρ m' ρ' _ hagree
  refine ⟨fun c => Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact Cert.ReferenceIdeal.Read.val_main_v19_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
